-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S10000x256 .f32) (main_arg1 : IVec S2x320000 32) (main_arg2 : FVec F S256x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩
abbrev S3200x256 : Shape := ⟨2, ![3200, 256]⟩

abbrev nBuf : Space → Nat
  | .hbm => 45
  | .vmem => 6
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S1x320000, .i32⟩
  | .hbm, ⟨5, _⟩ => ⟨S320000, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S320000, .i32⟩
  | .hbm, ⟨10, _⟩ => ⟨S320000, .i32⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S1x320000, .i32⟩
  | .hbm, ⟨15, _⟩ => ⟨S320000, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x256, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000x256, .f32⟩
  | .hbm, ⟨42, _⟩ => ⟨S320000x256, .f32⟩
  | .hbm, ⟨43, _⟩ => ⟨S1x256, .f32⟩
  | .hbm, ⟨44, _⟩ => ⟨S320000x256, .f32⟩
  | .local _ .vmem, ⟨0, _⟩ => ⟨S3200x256, .f32⟩
  | .local _ .vmem, ⟨1, _⟩ => ⟨S3200x256, .f32⟩
  | .local _ .vmem, ⟨2, _⟩ => ⟨S256x256, .f32⟩
  | .local _ .vmem, ⟨3, _⟩ => ⟨S1x256, .f32⟩
  | .local _ .vmem, ⟨4, _⟩ => ⟨S3200x256, .f32⟩
  | .local _ .vmem, ⟨5, _⟩ => ⟨S3200x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_c_3 : Ref sig .tc := ⟨.hbm, 24, rfl⟩
abbrev main_v6 : Ref sig .tc := ⟨.hbm, 25, rfl⟩
abbrev main_v7 : Ref sig .tc := ⟨.hbm, 26, rfl⟩
abbrev main_c_4 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_5 : Ref sig .tc := ⟨.hbm, 33, rfl⟩
abbrev main_v13 : Ref sig .tc := ⟨.hbm, 34, rfl⟩
abbrev main_v14 : Ref sig .tc := ⟨.hbm, 35, rfl⟩
abbrev main_c_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  slices_S2x320000_S1x320000_1_0 : S2x320000.Slices ![1, 0] S1x320000
  bcast_S320000_S320000x1_0 : S320000.BroadcastsInDim S320000x1 (![0] : Fin 1 → Fin S320000x1.rank)
  shapeCasts_S256_S1x256 : S256.ShapeCasts S1x256
  inb_S3200x256_S3200x256_0_0 : ∀ a, (![0, 0] : Fin 2 → Nat) a + S3200x256.size a ≤ S3200x256.size a
  h_S3200x256 : 0 < S3200x256.numel
  shapeCasts_S3200x256_S3200x256 : S3200x256.ShapeCasts S3200x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  gather_S10000x256_S320000x1_S320000x256_1_0_n_n_0_1_1256_wf : GatherDims.WF S10000x256 S320000x1 S320000x256 [1] [0] [] [0] [] 1 ![1, 256]
  dot_S3200x256_S256x256_S3200x256_1_0_0_1_n_n_wf : DotDims.WF S3200x256 S256x256 S3200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x256.size a ≤ S320000x256.size a
  hwx0_0 : ∀ i : grid0.Coords, EltTy.bits .f32 = 32 ∨ (Rect.block (s := S320000x256) S3200x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x256.size a ≤ S320000x256.size a
  hwx0_3 : ∀ i : grid0.Coords, EltTy.bits .f32 = 32 ∨ (Rect.block (s := S320000x256) S3200x256.size (cc0_transform_3 i) (hinb0_3 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf

abbrev win0_0 : Pipeline.Window sig grid0 :=
  Pipeline.Window.ofSpec (Memref.whole main_v20) S3200x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S3200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S256x256 : Shape := ⟨2, ![256, 256]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S1x256 : Shape := ⟨2, ![1, 256]⟩

abbrev nBuf : Space → Nat
  | .hbm => 47
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S256x256, .f32⟩
  | .hbm, ⟨3, _⟩ => ⟨S256, .f32⟩
  | .hbm, ⟨4, _⟩ => ⟨S1x320000, .i32⟩
  | .hbm, ⟨5, _⟩ => ⟨S320000, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S320000, .i32⟩
  | .hbm, ⟨10, _⟩ => ⟨S320000, .i32⟩
  | .hbm, ⟨11, _⟩ => ⟨S_, .i32⟩
  | .hbm, ⟨12, _⟩ => ⟨S320000, .i32⟩
  | .hbm, ⟨13, _⟩ => ⟨S320000, .i32⟩
  | .hbm, ⟨14, _⟩ => ⟨S1x320000, .i32⟩
  | .hbm, ⟨15, _⟩ => ⟨S320000, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S320000, .i32⟩
  | .hbm, ⟨20, _⟩ => ⟨S320000, .i32⟩
  | .hbm, ⟨21, _⟩ => ⟨S_, .i32⟩
  | .hbm, ⟨22, _⟩ => ⟨S320000, .i32⟩
  | .hbm, ⟨23, _⟩ => ⟨S320000, .i32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000x256, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000x256, .f32⟩
  | .hbm, ⟨42, _⟩ => ⟨S320000x256, .f32⟩
  | .hbm, ⟨43, _⟩ => ⟨S320000x256, .f32⟩
  | .hbm, ⟨44, _⟩ => ⟨S1x256, .f32⟩
  | .hbm, ⟨45, _⟩ => ⟨S320000x256, .f32⟩
  | .hbm, ⟨46, _⟩ => ⟨S320000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_c_3 : Ref sig .tc := ⟨.hbm, 24, rfl⟩
abbrev main_v6 : Ref sig .tc := ⟨.hbm, 25, rfl⟩
abbrev main_v7 : Ref sig .tc := ⟨.hbm, 26, rfl⟩
abbrev main_c_4 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_5 : Ref sig .tc := ⟨.hbm, 33, rfl⟩
abbrev main_v13 : Ref sig .tc := ⟨.hbm, 34, rfl⟩
abbrev main_v14 : Ref sig .tc := ⟨.hbm, 35, rfl⟩
abbrev main_c_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  slices_S2x320000_S1x320000_1_0 : S2x320000.Slices ![1, 0] S1x320000
  bcast_S320000_S320000x1_0 : S320000.BroadcastsInDim S320000x1 (![0] : Fin 1 → Fin S320000x1.rank)
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  gather_S10000x256_S320000x1_S320000x256_1_0_n_n_0_1_1256_wf : GatherDims.WF S10000x256 S320000x1 S320000x256 [1] [0] [] [0] [] 1 ![1, 256]
  dot_S320000x256_S256x256_S320000x256_1_0_0_1_n_n_wf : DotDims.WF S320000x256 S256x256 S320000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf

class Facts : Prop extends Facts₀ where

variable [Facts]
-- ==== Proof.DenseSpec.lean ====
/-
  The dense projection both programs apply to the summed endpoint features.

  For an array xs of 320000 rows (one per edge) of 256 features, a 256 × 256 weight array W and a bias
  vector b of 256 entries, the entry at row r and column v is the extended real

      ∑ q < 256, xs (r, q) · W (q, v)  +  b v.

  Row r of the result depends on row r of xs only, so the function restricted to a band of consecutive rows is
  the same sum over that band: this is what lets a product computed a band of rows at a time be set beside the
  whole product. No law beyond the definition is needed to join the two programs: each computes this sum with
  the factors in this order and adds the bias last.
-/
import Idealize.ShloMosaic.PureOps.Ideal
import Idealize.ShloMosaic.Lib.ValueIdx

noncomputable section

open scoped BigOperators

namespace Cert.Dense

open Idealize.ShloMosaic Idealize.ShloMosaic.ValueIdx

/-- xs · W + b over the extended reals, entry by entry: row (i 0), column (i 1). -/
def proj (xs : (⟨2, ![320000, 256]⟩ : Shape).Idx → EReal) (W : (⟨2, ![256, 256]⟩ : Shape).Idx → EReal)
    (b : (⟨1, ![256]⟩ : Shape).Idx → EReal) : (⟨2, ![320000, 256]⟩ : Shape).Idx → EReal :=
  fun i => (∑ q : Fin 256, xs (ix2 (i 0) q) * W (ix2 q (i 1))) + b (ix1 (i 1))

theorem proj_apply (xs : (⟨2, ![320000, 256]⟩ : Shape).Idx → EReal) (W : (⟨2, ![256, 256]⟩ : Shape).Idx → EReal)
    (b : (⟨1, ![256]⟩ : Shape).Idx → EReal) (i : (⟨2, ![320000, 256]⟩ : Shape).Idx) :
    proj xs W b i = (∑ q : Fin 256, xs (ix2 (i 0) q) * W (ix2 q (i 1))) + b (ix1 (i 1)) := rfl

end Cert.Dense

end
-- ==== Proof.RefDense.lean ====
/-
  The reference's result is the dense projection of its own summed endpoint features.

  The reference's last four operations are a matrix product of the [320000, 256] array of summed features with
  the [256, 256] weights, the bias vector laid out as one row and repeated down the 320000 rows, and their sum.
  Read at row r, column v: the product's entry is ∑ q, xs (r, q) · W (q, v) (the left index is (r, q), the right
  (q, v)), the repeated bias's entry is b v (row 0 of the one-row layout, column v), so the result's entry is
  the specification's.
-/
import proofs.«168380_j75668733821114_1_alg».proof.Proof.Gen.ReferenceIdeal.Read
import proofs.«168380_j75668733821114_1_alg».proof.Proof.DenseSpec

noncomputable section

open scoped BigOperators

namespace Cert.ReferenceIdeal.Dense

open Cert.ReferenceIdeal Cert.ReferenceIdeal.Read Idealize.ShloMosaic Idealize.ShloMosaic.ValueIdx

/-- The product's left operand is read at (result row, contraction position). -/
theorem left_index (i : S320000x256.Idx) (k : Fin 256) : lidx_main_v21 i k = ix2 (i 0) k :=
  funext fun a => by match a with | ⟨0, _⟩ => rfl | ⟨1, _⟩ => rfl

/-- The product's right operand is read at (contraction position, result column). -/
theorem right_index (i : S320000x256.Idx) (k : Fin 256) : ridx_main_v21 i k = ix2 k (i 1) :=
  funext fun a => by match a with | ⟨0, _⟩ => rfl | ⟨1, _⟩ => rfl

/-- The bias, laid out as one row and repeated down the rows, is read at the result's column. -/
theorem bias_index (i : S320000x256.Idx) : idx_main_v22 (idx_main_v23 i) = ix1 (i 1) :=
  funext fun a => by match a with | ⟨0, _⟩ => rfl

/-- The reference's result array is the specification applied to its summed-features stage, the weights and the bias. -/
theorem result_eq (x0 : (⟨S10000x256, .f32⟩ : BufTy).Contents (Elt Ideal)) (x1 : (⟨S2x320000, .i32⟩ : BufTy).Contents (Elt Ideal))
    (x2 : (⟨S256x256, .f32⟩ : BufTy).Contents (Elt Ideal)) (x3 : (⟨S256, .f32⟩ : BufTy).Contents (Elt Ideal)) :
    val_main_v24 (F := Ideal) x0 x1 x2 x3 = Cert.Dense.proj (val_main_v20 (F := Ideal) x0 x1) x2 x3 := by
  funext i
  rw [val_main_v24_apply, val_main_v21_apply, val_main_v23_apply, val_main_v22_apply, Cert.Dense.proj_apply]
  simp only [left_index, right_index, bias_index, Ideal.addf_def]
  rfl

end Cert.ReferenceIdeal.Dense

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.KernelDense.lean ====
/-
  What the kernel's result array holds: the dense projection of the summed endpoint features.

  The kernel's one region walks the 320000 rows of the summed features in 100 bands of 3200 consecutive rows. At
  band t its body reads the band (rows 3200·t … 3200·t + 3199, all 256 columns), the whole 256 × 256 weight
  array and the bias laid out as one row of 256, and stores, at row p and column v of the band,

      ∑ q < 256, band (p, q) · W (q, v)  +  bias (0, v):

  the narrowing of both factors to a shorter float format is the identity on the extended reals, the product
  accumulates into zero, and the one-row bias is repeated down the band's rows. Row p of band t is row
  3200·t + p of the array, so what band t writes back is the band of the specification (xs · W + b) over the arrays
  as the region finds them. The bands are pairwise disjoint and every row r lies in band r / 3200, so after the run
  the result array is the specification everywhere.

  The bias reaches the region as the vector b recast to one row: entry (0, v) of that row is b v (both have
  row-major position v).
-/
import proofs.«168380_j75668733821114_1_alg».proof.Proof.Gen.KernelIdeal.Value
import proofs.«168380_j75668733821114_1_alg».proof.Proof.DenseSpec
import proofs.«168380_j75668733821114_1_alg».proof.Proof.LibDotRowsCols
import Idealize.ShloMosaic.Lib.Pipeline.Value
import Idealize.ShloMosaic.Lib.ValueIdx
import Idealize.ShloMosaic.Lib.StableHlo.Run

noncomputable section

open scoped BigOperators

namespace Cert.KernelIdeal.Dense

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## The body's stored value at an entry -/

/-- The band's product contracts the band's columns with the weights' rows and batches nothing. -/
theorem band_dims : Cert.Lib.DotRowsCols.RowsCols dot_S3200x256_S256x256_S3200x256_1_0_0_1_n_n := ⟨rfl, rfl, rfl, rfl, rfl, rfl⟩

/-- At row p, column v the body stores ∑ q, x0 (p, q) · x1 (q, v) + x2 (0, v): the recasts to the same shape and the
    narrowings are the identity, the product into zero is the plain sum, the one-row operand is read at row 0. -/
theorem stored_apply (x0 : Vec Ideal S3200x256 .f32) (x1 : Vec Ideal S256x256 .f32) (x2 : Vec Ideal S1x256 .f32) (p : Fin 3200) (v : Fin 256) :
    k0_pay1 (F := Ideal) x0 x1 x2 (ix2 p v) = (∑ q : Fin 256, x0 (ix2 p q) * x1 (ix2 q v)) + x2 (ix2 0 v) := by
  unfold k0_pay1
  refine (addf_apply _ _ _).trans ?_
  refine congrArg₂ (· + ·) ?_ ?_
  · refine (band_dims.matmul_zero_apply none _ _ (ix2 p v)).trans ?_
    refine Finset.sum_congr rfl fun q _ => ?_
    refine congrArg₂ (· * ·) ?_ rfl
    exact congrFun (shapeCast_self x0 shapeCasts_S3200x256_S3200x256) (ix2 p q)
  · refine (broadcastTo_apply _ broadcasts_S1x256_S3200x256 (ix2 p v) (ix2 0 v) ?_).trans ?_
    · intro a
      match a with
      | ⟨0, _⟩ => rfl
      | ⟨1, _⟩ => rfl
    · exact congrFun (shapeCast_self x2 shapeCasts_S1x256_S1x256) (ix2 0 v)

/-- The same at any index of the band, by its two coordinates. -/
theorem stored_at (x0 : Vec Ideal S3200x256 .f32) (x1 : Vec Ideal S256x256 .f32) (x2 : Vec Ideal S1x256 .f32) (j : S3200x256.Idx) :
    k0_pay1 (F := Ideal) x0 x1 x2 j = (∑ q : Fin 256, x0 (ix2 (j 0) q) * x1 (ix2 q (j 1))) + x2 (ix2 0 (j 1)) :=
  (congrArg (k0_pay1 (F := Ideal) x0 x1 x2) (eq_ix2 j)).trans (stored_apply x0 x1 x2 (j 0) (j 1))

variable (m : (ℓ : Loc nD τ sig) → Buf (Elt Ideal) ℓ) (ρ : Dev nD → PrngReg)

/-! ## The bias as the region finds it -/

/-- The region finds the bias vector recast to one row. -/
theorem bias_row (c : Dev nD) :
    (V m c main_v21 : S1x256.Idx → EReal) = shapeCast S1x256 (m ((c : Thread nD τ).loc main_arg3)) shapeCasts_S256_S1x256 := by
  dsimp only [V]
  simp only [hostOps0, hostOps0_1, hostOps0_2, hostOps0_3, hostOps0_4, List.flatten_cons, List.flatten_nil, List.append_nil,
    List.cons_append, List.nil_append]
  after_results
  rfl

/-- Entry (0, v) of that row is entry v of the vector: both sit at row-major position v. -/
theorem bias_row_apply (c : Dev nD) (v : Fin 256) :
    V m c main_v21 (ix2 0 v) = m ((c : Thread nD τ).loc main_arg3) (ix1 v) :=
  (congrFun (bias_row m c) (ix2 0 v)).trans
    (shapeCast_apply _ shapeCasts_S256_S1x256 (ix2 0 v) (ix1 v) (by
      rw [Shape.rowMajor_val_one, Shape.rowMajor_val_two]
      show v.val = 0 * 256 + v.val
      omega))

/-! ## From bands to the array -/

theorem origin : (![0, 0] : Fin 2 → Nat) = fun _ => 0 := funext fun a => by fin_cases a <;> rfl

/-- Where each operand's block sits at point t, decided over the 100 points: the features' and the result's blocks are
    band t (block row t, block column 0); the weights' and the bias's blocks are the whole arrays. -/
theorem block_places : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is band t of the specification over the arrays as the region finds them. -/
theorem written_back (c : Dev nD) (t : Fin cfg0.N) :
    (dats m 0 c).flushed 3 t = ((cfg0.win 3).blk t).view.read (Elt Ideal)
      (Cert.Dense.proj (V m c main_v20) (V m c main_arg2) (m ((c : Thread nD τ).loc main_arg3))) := by
  rw [Cert.KernelIdeal.Value.flushed3]
  unfold out0_3
  rw [View.canon_unit_zero origin]
  simp only [View.ld_unit_zero (S := S3200x256) origin, View.ld_unit_zero (S := S256x256) origin, View.ld_unit_zero (S := S1x256) origin]
  obtain ⟨e00, e01, e10, e11, e20, e21, e30, e31⟩ := block_places t
  funext j
  show k0_pay1 (iblk m c 0 t) (iblk m c 1 t) (iblk m c 2 t) j
    = Cert.Dense.proj (V m c main_v20) (V m c main_arg2) (m ((c : Thread nD τ).loc main_arg3)) (((cfg0.win 3).blk t).view.emb j)
  refine (stored_at (iblk m c 0 t) (iblk m c 1 t) (iblk m c 2 t) j).trans ?_
  rw [Cert.Dense.proj_apply]
  have hj0 : (j 0).val < 3200 := (j 0).isLt
  have hj1 : (j 1).val < 256 := (j 1).isLt
  refine congrArg₂ (· + ·) (Finset.sum_congr rfl fun q _ => congrArg₂ (· * ·) ?_ ?_) ?_
  · -- row (j 0) of band t of the features is the array's row 3200·t + (j 0), the result entry's row
    show V m c main_v20 (((cfg0.win 0).blk t).view.emb (ix2 (j 0) q)) = V m c main_v20 (ix2 ((((cfg0.win 3).blk t).view.emb j) 0) q)
    refine congrArg (V m c main_v20) (funext fun a => Fin.ext ?_)
    match a with
    | ⟨0, _⟩ => show win0_0.index t (0 : Fin 2) * 3200 + 1 * (j 0).val = win0_3.index t (0 : Fin 2) * 3200 + 1 * (j 0).val; omega
    | ⟨1, _⟩ => show win0_0.index t (1 : Fin 2) * 256 + 1 * q.val = q.val; omega
  · -- the weights' block is the whole array; the band's column is the result entry's column
    show V m c main_arg2 (((cfg0.win 1).blk t).view.emb (ix2 q (j 1))) = V m c main_arg2 (ix2 q ((((cfg0.win 3).blk t).view.emb j) 1))
    refine congrArg (V m c main_arg2) (funext fun a => Fin.ext ?_)
    match a with
    | ⟨0, _⟩ => show win0_1.index t (0 : Fin 2) * 256 + 1 * q.val = q.val; omega
    | ⟨1, _⟩ => show win0_1.index t (1 : Fin 2) * 256 + 1 * (j 1).val = win0_3.index t (1 : Fin 2) * 256 + 1 * (j 1).val; omega
  · -- the bias's block is its whole row; its entry (0, column) is the vector's entry at the column
    have hcol : (((cfg0.win 3).blk t).view.emb j) 1 = (⟨(j 1).val, hj1⟩ : Fin 256) :=
      Fin.ext (by show win0_3.index t (1 : Fin 2) * 256 + 1 * (j 1).val = (j 1).val; omega)
    refine Eq.trans ?_ (congrArg (fun v : Fin 256 => m ((c : Thread nD τ).loc main_arg3) (ix1 v)) hcol.symm)
    refine Eq.trans (congrArg (V m c main_v21) (funext fun a => Fin.ext ?_)) (bias_row_apply m c ⟨(j 1).val, hj1⟩)
    match a with
    | ⟨0, _⟩ => show win0_2.index t (0 : Fin 2) * 1 + 1 * 0 = 0; omega
    | ⟨1, _⟩ => show win0_2.index t (1 : Fin 2) * 256 + 1 * (j 1).val = (j 1).val; omega

/-- An index of the array is in point t's block iff each coordinate is in the block's range on its axis. -/
theorem mem_band (t : Fin cfg0.N) (i : S320000x256.Idx) :
    i ∈ ((cfg0.win 3).blk t).view.set ↔ ∀ a : Fin 2, win0_3.index t a * S3200x256.size a ≤ (i a).val
      ∧ (i a).val < win0_3.index t a * S3200x256.size a + S3200x256.size a := by
  show i ∈ ((View.whole main_v22).slice (win0_3.rect t)).set ↔ _
  rw [View.set_slice_whole, Rect.mem_set_unit]
  exact Iff.rfl

/-- Every entry of the array is written back by some point: row r by point r / 3200. -/
theorem covered (i : S320000x256.Idx) :
    ∃ t : Fin cfg0.N, (cfg0.win 3).flush t = true ∧ i ∈ ((cfg0.win 3).blk t).view.set := by
  have hi0 : (i 0).val < 320000 := (i 0).isLt
  have hi1 : (i 1).val < 256 := (i 1).isLt
  have hN : cfg0.N = 100 := N_0
  have hlt : (i 0).val / 3200 < cfg0.N := by rw [hN]; omega
  obtain ⟨-, -, -, -, -, -, e30, e31⟩ := block_places ⟨(i 0).val / 3200, hlt⟩
  have e30' : win0_3.index ⟨(i 0).val / 3200, hlt⟩ (0 : Fin 2) = (i 0).val / 3200 := e30
  refine ⟨⟨(i 0).val / 3200, hlt⟩, flush0_3 _, ?_⟩
  rw [mem_band]
  intro a
  match a with
  | ⟨0, _⟩ =>
    show win0_3.index ⟨(i 0).val / 3200, hlt⟩ (0 : Fin 2) * 3200 ≤ (i 0).val
      ∧ (i 0).val < win0_3.index ⟨(i 0).val / 3200, hlt⟩ (0 : Fin 2) * 3200 + 3200
    omega
  | ⟨1, _⟩ =>
    show win0_3.index ⟨(i 0).val / 3200, hlt⟩ (1 : Fin 2) * 256 ≤ (i 1).val
      ∧ (i 1).val < win0_3.index ⟨(i 0).val / 3200, hlt⟩ (1 : Fin 2) * 256 + 256
    omega

/-- The result array after the run is the specification of the summed features as the region finds them, the weights
    and the bias. -/
theorem result_array (c : Dev nD) :
    (dats m 0 c).arrAt 3 cfg0.N
      = Cert.Dense.proj (V m c main_v20) (m ((c : Thread nD τ).loc main_arg2)) (m ((c : Thread nD τ).loc main_arg3)) := by
  have h := (dats m 0 c).arrAt_eq_of_cover 3
    (Cert.Dense.proj (V m c main_v20) (V m c main_arg2) (m ((c : Thread nD τ).loc main_arg3)))
    (fun t _ => written_back m c t) covered
  rw [V_main_arg2 m c] at h
  exact h

/-! ## The run, read -/

/-- Every weakly fair execution terminates with the result array at the specification and the arguments unchanged. -/
theorem run : θ_run defs (onTc (τ := τ) (main (F := Ideal))) ⟨m, fun _ => 0, ρ⟩ fun r => ∀ c : Dev nD,
      r.2.mem ((c : Thread nD τ).loc main_v22)
        = Cert.Dense.proj (V m c main_v20) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (result_array m c), (h c).2⟩)
    (Cert.KernelIdeal.Value.run_blocks m ρ)

end Cert.KernelIdeal.Dense

end
-- ==== Proof.SharedFeatures.lean ====
/-
  The two programs sum the same endpoint features.

  Before its region the kernel's program, and before its matrix product the reference, do the same things to the
  node features x and the edge list: take each of the edge list's two rows, clamp every endpoint to 0 … 9999, add
  10000 to an endpoint that is negative (none is, after the clamp), gather that endpoint's row of x, and add the two
  gathered arrays entry by entry — the same operations with the same constants in the same order. So the array the
  kernel's region finds as its first operand is the reference's summed-features stage of the same x and edge list,
  whatever the edge list holds: nothing here looks inside the gather.
-/
import proofs.«168380_j75668733821114_1_alg».proof.Proof.Gen.KernelIdeal.Frame
import proofs.«168380_j75668733821114_1_alg».proof.Proof.Gen.ReferenceIdeal.Read
import Idealize.ShloMosaic.Lib.StableHlo.Run

noncomputable section

namespace Cert.KernelIdeal.Dense

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxRecDepth 8192 in
set_option maxHeartbeats 2000000 in
/-- The summed endpoint features as the kernel's region finds them are the reference's stage of the same arguments. -/
theorem features_entry (c : Dev nD) :
    (V m c main_v20 : S320000x256.Idx → EReal)
      = Cert.ReferenceIdeal.Read.val_main_v20 (F := Ideal) (m ((c : Thread nD τ).loc main_arg0)) (m ((c : Thread nD τ).loc main_arg1)) := by
  dsimp only [V]
  simp only [hostOps0, hostOps0_1, hostOps0_2, hostOps0_3, hostOps0_4, List.flatten_cons, List.flatten_nil, List.append_nil,
    List.cons_append, List.nil_append]
  after_results_simp <;> rfl

end Cert.KernelIdeal.Dense

end
-- ==== Proof.lean ====
/- The kernel against its reference: out = (x[row] + x[col]) · W + b over 320000 edges.

   Both programs clamp the two endpoint rows of the edge list to 0 … 9999, gather the endpoints' rows of the node
   features x and add them: the summed features xs, a [320000, 256] array, by the same operations in both programs
   (Proof/SharedFeatures.lean). The reference then forms xs · W with one matrix product and adds the bias b to every
   row; its result at row r, column v is  ∑ q < 256, xs (r, q) · W (q, v) + b v  (Proof/RefDense.lean). The kernel
   forms the same entries a band of 3200 rows at a time — narrowing the factors to a shorter float format, which is the
   identity on the extended reals, accumulating the product into zero, and adding the bias laid out as one row — and
   its 100 bands cover the array (Proof/KernelDense.lean). So the two results are one function of the arguments,
   Proof/DenseSpec.lean's, and no algebraic law, hence no finiteness of the inputs, is needed to join them.
   The idealized kernel is the kernel's own text read over the extended reals: there is nothing to preserve. -/
import proofs.«168380_j75668733821114_1_alg».proof.Defs
import proofs.«168380_j75668733821114_1_alg».proof.Proof.Gen.Kernel
import proofs.«168380_j75668733821114_1_alg».proof.Proof.Gen.Kernel.Skeleton
import proofs.«168380_j75668733821114_1_alg».proof.Proof.Gen.Kernel.Launch
import proofs.«168380_j75668733821114_1_alg».proof.Proof.Gen.Kernel.Points
import proofs.«168380_j75668733821114_1_alg».proof.Proof.Gen.Kernel.Frame
import proofs.«168380_j75668733821114_1_alg».proof.Proof.Gen.KernelIdeal
import proofs.«168380_j75668733821114_1_alg».proof.Proof.Gen.KernelIdeal.Skeleton
import proofs.«168380_j75668733821114_1_alg».proof.Proof.Gen.KernelIdeal.Launch
import proofs.«168380_j75668733821114_1_alg».proof.Proof.Gen.KernelIdeal.Points
import proofs.«168380_j75668733821114_1_alg».proof.Proof.Gen.KernelIdeal.Frame
import proofs.«168380_j75668733821114_1_alg».proof.Proof.Gen.ReferenceIdeal
import proofs.«168380_j75668733821114_1_alg».proof.Proof.Gen.Pre_finite_inputs
import proofs.«168380_j75668733821114_1_alg».proof.Proof.Gen.KernelIdeal.Value
import proofs.«168380_j75668733821114_1_alg».proof.Proof.Gen.ReferenceIdeal.Run
import proofs.«168380_j75668733821114_1_alg».proof.Proof.Gen.ReferenceIdeal.Read
import proofs.«168380_j75668733821114_1_alg».proof.Proof.DenseSpec
import proofs.«168380_j75668733821114_1_alg».proof.Proof.RefDense
import proofs.«168380_j75668733821114_1_alg».proof.Proof.KernelDense
import proofs.«168380_j75668733821114_1_alg».proof.Proof.SharedFeatures
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel :=
  fun m ρ _ => Cert.Kernel.Gen.frame m ρ

/-- So does the kernel read over the extended reals. -/
theorem frame_kernel_ideal : Cert.frame_KernelIdeal :=
  fun m ρ _ => Cert.KernelIdeal.Gen.frame m ρ

/-- The reference is a line of array operations: its run, with the result dropped. -/
theorem frame_reference_ideal : Cert.frame_ReferenceIdeal :=
  fun m ρ _ => (θ_run Cert.ReferenceIdeal.defs _ _).mono (fun _ h c => (h c).2) (Cert.ReferenceIdeal.Value.run (F := Ideal) m ρ)

/-- From arguments that agree both programs end with the dense projection of the summed endpoint features: the
    kernel's bands assemble to it, the reference's last stage is it, and the summed features are the same stage. -/
theorem algebraic : Cert.algebraic_KernelIdeal_ReferenceIdeal := by
  intro m ρ m' ρ' _ hagree
  refine ⟨fun c => Cert.Dense.proj
      (Cert.ReferenceIdeal.Read.val_main_v20 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.Dense.run m ρ)
    rw [Cert.KernelIdeal.Dense.features_entry m c]
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact (Cert.ReferenceIdeal.Read.val_main_v24_eq _ _ _ _).trans (Cert.ReferenceIdeal.Dense.result_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
